-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x1 : Shape := ⟨2, ![100000, 1]⟩
abbrev S460x64 : Shape := ⟨2, ![460, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S460x64 : S_.BroadcastsInDim S460x64 (![] : Fin 0 → Fin S460x64.rank)
  reducesTo_S460x64_S_d0_1 : S460x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : FVec F S64 .f32) (main_arg8 : IVec S1600000 32) (main_arg10 : IVec S1600000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg8 main_v39
  let main_c_15 : IVec S_ 1 := constantI S_ 1 1#1
  let main_v41 : IVec S_ 1 := (fun x v => Host.reduce IntOp.andi x v reducesTo_S1600000_S_d0 h_S_) main_v40 main_c_15
  let main_v42 : IVec S_ 1 := andi main_v38 main_v41
  let main_c_16 : IVec S_ 32 := constantI S_ 32 0#32
  let main_v43 : IVec S1600000 32 := broadcastInDim S1600000 ![] bcast_S_S1600000 main_c_16
  let main_v44 : IVec S1600000 1 := cmpi .sge main_arg10 main_v43
  let main_c_17 : IVec S_ 1 := constantI S_ 1 1#1
  let main_v45 : IVec S_ 1 := (fun x v => Host.reduce IntOp.andi x v reducesTo_S1600000_S_d0 h_S_) main_v44 main_c_17
  let main_v46 : IVec S_ 1 := andi main_v42 main_v45
  main_v46

def fn_part1 {F : FTy → Type} [FloatOps F] (main_arg4 : FVec F S64x64 .f32) (main_arg5 : FVec F S64x64 .f32) (main_arg6 : FVec F S64x64 .f32) (main_arg7 : FVec F S64 .f32) (main_arg8 : IVec S1600000 32) (main_arg10 : IVec S1600000 32) (main_v13 : IVec S_ 1) (main_v16 : IVec S460x64 1) : IVec S_ 1 :=
  let main_c_5 : IVec S_ 1 := constantI S_ 1 1#1
  let main_v17 : IVec S_ 1 := (fun x v => Host.reduce IntOp.andi x v reducesTo_S460x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg10 main_v33

def fn {F : FTy → Type} [FloatOps F] (main_arg0 : FVec F S100000x64 .f32) (main_arg1 : FVec F S100000x1 .f32) (main_arg2 : FVec F S100000x64 .f32) (main_arg3 : FVec F S460x64 .f32) (main_arg4 : FVec F S64x64 .f32) (main_arg5 : FVec F S64x64 .f32) (main_arg6 : FVec F S64x64 .f32) (main_arg7 : FVec F S64 .f32) (main_arg8 : IVec S1600000 32) (main_arg9 : IVec S1600000 32) (main_arg10 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S460x64 .f32 := Host.absf main_arg3
  let main_cst_4 : FVec F S_ .f32 := constant S_ .f32 0x7F800000#32
  let main_v15 : FVec F S460x64 .f32 := broadcastInDim S460x64 ![] bcast_S_S460x64 main_cst_4
  let main_v16 : IVec S460x64 1 := cmpf .olt main_v14 main_v15
  fn_part1 (F := F) main_arg4 main_arg5 main_arg6 main_arg7 main_arg8 main_arg10 main_v13 main_v16
-- ==== Kernel.lean ====
abbrev S100000x64 : Shape := ⟨2, ![100000, 64]⟩
abbrev S100000x1 : Shape := ⟨2, ![100000, 1]⟩
abbrev S460x64 : Shape := ⟨2, ![460, 64]⟩
abbrev S64x64 : Shape := ⟨2, ![64, 64]⟩
abbrev S64 : Shape := ⟨1, ![64]⟩
abbrev S1600000 : Shape := ⟨1, ![1600000]⟩
abbrev S5000x64 : Shape := ⟨2, ![5000, 64]⟩
abbrev S1600000x1 : Shape := ⟨2, ![1600000, 1]⟩
abbrev S1600000x64 : Shape := ⟨2, ![1600000, 64]⟩
abbrev S_ : Shape := ⟨0, ![]⟩
abbrev S1x64 : Shape := ⟨2, ![1, 64]⟩

abbrev nBuf : Space → Nat
  | .hbm => 26
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S100000x64, .f32⟩
  | .hbm, ⟨3, _⟩ => ⟨S460x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S100000x64, .f32⟩
  | .hbm, ⟨12, _⟩ => ⟨S100000x64, .f32⟩
  | .hbm, ⟨13, _⟩ => ⟨S460x64, .f32⟩
  | .hbm, ⟨14, _⟩ => ⟨S1600000x1, .i32⟩
  | .hbm, ⟨15, _⟩ => ⟨S1600000x64, .f32⟩
  | .hbm, ⟨16, _⟩ => ⟨S1600000x1, .i32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_call0_v0 : Ref sig .tc := ⟨.hbm, 14, rfl⟩
abbrev main_v2 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  dot_S5000x64_S64x64_S5000x64_1_0_0_1_n_n_wf : DotDims.WF S5000x64 S64x64 S5000x64 [1] [0] [0] [1] [] []
  dot_S460x64_S64x64_S460x64_1_0_0_1_n_n_wf : DotDims.WF S460x64 S64x64 S460x64 [1] [0] [0] [1] [] []
  gather_S100000x64_S1600000x1_S1600000x64_1_0_n_n_0_1_164_wf : GatherDims.WF S100000x64 S1600000x1 S1600000x64 [1] [0] [] [0] [] 1 ![1, 64]
  gather_S460x64_S1600000x1_S1600000x64_1_0_n_n_0_1_164_wf : GatherDims.WF S460x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S460x64_S64x64_S460x64_1_0_0_1_n_n : DotDims S460x64 S64x64 S460x64 where
  lhsContracting := [1]
  rhsContracting := [0]
  lhsNonContracting := [0]
  rhsNonContracting := [1]
  lhsBatch := []
  rhsBatch := []
  wf := dot_S460x64_S64x64_S460x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S460x64_S1600000x1_S1600000x64_1_0_n_n_0_1_164 : GatherDims S460x64 S1600000x1 S1600000x64 where
  offsetDims := [1]
  collapsedSliceDims := [0]
  operandBatchingDims := []
  startIndicesBatchingDims := []
  startIndexMap := [0]
  indexVectorDim := 1
  sliceSizes := ![1, 64]
  wf := gather_S460x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000x1 : Shape := ⟨2, ![100000, 1]⟩
abbrev S460x64 : Shape := ⟨2, ![460, 64]⟩
abbrev S64x64 : Shape := ⟨2, ![64, 64]⟩
abbrev S64 : Shape := ⟨1, ![64]⟩
abbrev S1600000 : Shape := ⟨1, ![1600000]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 60
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x1, .f32⟩
  | .hbm, ⟨2, _⟩ => ⟨S100000x64, .f32⟩
  | .hbm, ⟨3, _⟩ => ⟨S460x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S100000x64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S_, .f32⟩
  | .hbm, ⟨22, _⟩ => ⟨S100000x64, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  gather_S460x64_S1600000x1_S1600000x64_1_0_n_n_0_1_164_wf : GatherDims.WF S460x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S460x64_S1600000x1_S1600000x64_1_0_n_n_0_1_164 : GatherDims S460x64 S1600000x1 S1600000x64 where
  offsetDims := [1]
  collapsedSliceDims := [0]
  operandBatchingDims := []
  startIndicesBatchingDims := []
  startIndexMap := [0]
  indexVectorDim := 1
  sliceSizes := ![1, 64]
  wf := gather_S460x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics of one relational graph-convolution layer with a gated skip connection, stated once over whole
  arrays, and the one algebraic law the equivalence needs.

  With `h : [N, 64]` the node features, `E : [R, 64]` the relation embeddings, `Wn, Wl, Ws : [64, 64]`, a bias
  `b : [64]`, the previous layer's output `p : [N, 64]` and the degree norm `nu : [N, 1]`:

  * a ROW PRODUCT `rowsDot A W` of a matrix of rows with a 64 x 64 matrix: entry `(r, j)` is the sum over `k` of
    `A (r, k) * W (k, j)`;
  * the edge MESSAGE of edge `e`, with source row `s` and relation row `t`: `(h s + E t) W`; the product is
    linear in its rows, so the message is also `(h W) s + (E W) t` — on the extended reals this needs every entry
    involved to be a real number, since `(a + b) w = a w + b w` fails at the infinities (`dot_add_rows`);
  * the COMBINE step at node `n`, column `j`: with the gate `g = logistic ((p Ws) (n, j) + b j)`,
    `max (g * (a (n, j) + l (n, j)) + (1 - g) * p (n, j)) 0`, where `a` is the normalised aggregate and `l` the
    self-loop term.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with `r` rows and `c` columns. -/
abbrev Mat (r c : Nat) : Type := (⟨2, ![r, c]⟩ : Shape).Idx → EReal

/-- The row coordinate of an index of an `r x c` matrix, typed by the literal extent. -/
abbrev row {r c : Nat} (i : (⟨2, ![r, c]⟩ : Shape).Idx) : Fin r := ⟨(i 0).val, (i 0).isLt⟩
/-- Its column coordinate. -/
abbrev col {r c : Nat} (i : (⟨2, ![r, c]⟩ : Shape).Idx) : Fin c := ⟨(i 1).val, (i 1).isLt⟩

theorem ix2_row_col {r c : Nat} (i : (⟨2, ![r, c]⟩ : Shape).Idx) : ix2 (row i) (col i) = i := by
  funext d
  match d with
  | ⟨0, _⟩ => rfl
  | ⟨1, _⟩ => rfl

/-- Rows times a 64 x 64 matrix: entry `(r, j)` is the sum over `k` of `A (r, k) * W (k, j)`. -/
def rowsDot {R : Nat} (A : Mat R 64) (W : Mat 64 64) : Mat R 64 :=
  fun i => ∑ k : Fin 64, A (ix2 (row i) k) * W (ix2 k (col i))

/-- The word both programs spell for the number one, and the word for zero, kept as words: the same word on both
    sides is never evaluated. -/
abbrev oneW : EReal := Ideal.ofBits .f32 0x3F800000#32
abbrev zeroW : EReal := Ideal.ofBits .f32 0x00000000#32

/-- The word `0x3F800000` denotes the real number one. -/
theorem oneW_eq : oneW = 1 := by
  simp [oneW, Ideal.ofBits, Ideal.ieee, -EReal.coe_mul]; norm_num

/-- The logistic function spelt out with the word for one, `1 / (1 + exp (-z))`, is the logistic function. -/
theorem logistic_spelt (z : EReal) : Ideal.div oneW (oneW + Ideal.exp (-z)) = Ideal.logistic z := by
  rw [oneW_eq]; rfl

/-- The gate, the blend and the rectifier at one entry: `g = logistic z`, the result `max (g * (a + l) + (1 - g) * p) 0`. -/
def blend (z a l p : EReal) : EReal :=
  max (Ideal.logistic z * (a + l) + (oneW - Ideal.logistic z) * p) zeroW

/-- The combine step over whole arrays: at `(n, j)` the gate's argument is `(p Ws) (n, j) + b j`. -/
def combine {N : Nat} (p a l : Mat N 64) (Ws : Mat 64 64) (b : (⟨1, ![64]⟩ : Shape).Idx → EReal) : Mat N 64 :=
  fun i => blend (rowsDot p Ws i + b (ix1 (col i))) (a i) (l i) (p i)

/-! ## A plain matrix product's contraction sum is the row product -/

/-- For the dimension numbers of a plain product (rows by contraction, contraction by columns, no batch axis) the
    sum over the contraction index of the operands at the product's operand indices is the row product: the left
    operand is read at `(row, k)`, the right at `(k, column)`. -/
theorem plain_sum {R : Nat} (d : DotDims ⟨2, ![R, 64]⟩ ⟨2, ![64, 64]⟩ ⟨2, ![R, 64]⟩) (hd : d = DotDims.plain R 64 64)
    (lhs : Mat R 64) (rhs : Mat 64 64) (j : (⟨2, ![R, 64]⟩ : Shape).Idx) :
    ∑ k : d.contr.Idx, lhs (d.lhsIdx j k) * rhs (d.rhsIdx j k) = rowsDot lhs rhs j := by
  subst hd
  rw [← Equiv.sum_comp (contrEquiv1 (DotDims.plain R 64 64) 64 rfl rfl).symm]
  unfold rowsDot
  refine Finset.sum_congr rfl fun k _ => ?_
  have hk := contrEquiv1_symm_val (DotDims.plain R 64 64) 64 rfl rfl k
  have el : (DotDims.plain R 64 64).lhsIdx j ((contrEquiv1 (DotDims.plain R 64 64) 64 rfl rfl).symm k) = ix2 (row j) k :=
    funext fun a => Fin.ext (by
      match a with
      | ⟨0, _⟩ => rfl
      | ⟨1, _⟩ => exact ((DotDims.plain R 64 64).lhsIdx_val_of_single rfl j _).trans hk)
  have er : (DotDims.plain R 64 64).rhsIdx j ((contrEquiv1 (DotDims.plain R 64 64) 64 rfl rfl).symm k) = ix2 k (col j) :=
    funext fun a => Fin.ext (by
      match a with
      | ⟨0, _⟩ => exact ((DotDims.plain R 64 64).rhsIdx_val_of_single rfl j _).trans hk
      | ⟨1, _⟩ => rfl)
  rw [el, er]

/-! ## The law: a dot product is additive in its left factor, over real entries -/

/-- For real `a`, `b`, `w`: `(a + b) * w = a * w + b * w` on the extended reals. -/
theorem add_mul_real (a b w : ℝ) : ((a : EReal) + (b : EReal)) * (w : EReal) = (a : EReal) * (w : EReal) + (b : EReal) * (w : EReal) := by
  rw [← EReal.coe_add, ← EReal.coe_mul, ← EReal.coe_mul, ← EReal.coe_mul, ← EReal.coe_add, add_mul]

/-- A 64-term dot product whose left factor is a sum splits into two, when every factor is a real number. -/
theorem dot_add_rows (a b w : Fin 64 → EReal) (ha : ∀ k, ∃ r : ℝ, a k = (r : EReal)) (hb : ∀ k, ∃ r : ℝ, b k = (r : EReal))
    (hw : ∀ k, ∃ r : ℝ, w k = (r : EReal)) :
    ∑ k : Fin 64, (a k + b k) * w k = ∑ k : Fin 64, a k * w k + ∑ k : Fin 64, b k * w k := by
  rw [← Finset.sum_add_distrib]
  refine Finset.sum_congr rfl fun k _ => ?_
  obtain ⟨x, hx⟩ := ha k
  obtain ⟨y, hy⟩ := hb k
  obtain ⟨z, hz⟩ := hw k
  rw [hx, hy, hz]
  exact add_mul_real x y z

end Cert.Spec

end
-- ==== Proof.Payload.lean ====
/-
  The two kernel bodies at the ideal instance, as whole-block functions of the blocks they load.

  The first body stores two matrix products of its block of node features (the change of float format before each
  product is the identity on extended reals, and the accumulator is zero): each is the row product of the block with
  the whole 64 x 64 weight.  The second body stores the combine step of its three row blocks, the gate weight and the
  bias: the bias vector is cast to one row and broadcast down the rows, so at `(n, j)` it contributes `b j`.
-/
import proofs.«428677_j12180527251908_3_alg».proof.Proof.Gen.KernelIdeal.Skeleton
import proofs.«428677_j12180527251908_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.Spec
open Idealize.ShloMosaic Idealize.ShloMosaic.ValueIdx

/-- The blocks' matrix product has the plain dimension numbers: rows by contraction, contraction by columns. -/
theorem dot_plain : dot_S5000x64_S64x64_S5000x64_1_0_0_1_n_n = DotDims.plain 5000 64 64 := rfl

/-- A block's matrix product into the zero accumulator, its operands narrowed first (the identity here), is the row
    product of the block with the weight. -/
theorem matmul_rows (x : Vec Ideal S5000x64 .f32) (w : Vec Ideal S64x64 .f32) :
    matmul (F := Ideal) dot_S5000x64_S64x64_S5000x64_1_0_0_1_n_n none (truncf .bf16 x bitsLt_bf16_f32) (truncf .bf16 w bitsLt_bf16_f32)
      (constant S5000x64 .f32 0x00000000#32) = rowsDot x w := by
  funext j
  simp only [matmul]
  rw [Ideal.matmul_constant_zero_apply]
  exact plain_sum _ dot_plain x w j

/-- The first store's payload: the block of features times the first weight. -/
theorem pay2_rows (x0 : Vec Ideal S5000x64 .f32) (x1 : Vec Ideal S64x64 .f32) : k0_pay2 x0 x1 = rowsDot x0 x1 := by
  funext j
  unfold k0_pay2 k0_pay1
  dsimp only
  simp only [matmul]
  rw [Ideal.matmul_constant_zero_apply]
  exact plain_sum _ dot_plain x0 x1 j

/-- The second store's payload: the same block times the second weight. -/
theorem pay3_rows (x0 : Vec Ideal S5000x64 .f32) (x2 : Vec Ideal S64x64 .f32) : k0_pay3 x0 x2 = rowsDot x0 x2 := by
  funext j
  unfold k0_pay3 k0_pay1
  dsimp only
  simp only [matmul]
  rw [Ideal.matmul_constant_zero_apply]
  exact plain_sum _ dot_plain x0 x2 j

/-- The bias, cast to one row and broadcast down the rows, read at `(n, j)`: `b j`. -/
theorem bias_apply (x4 : Vec Ideal S64 .f32) (p : Fin 5000) (q : Fin 64) :
    broadcastTo S5000x64 (shapeCast S1x64 x4 shapeCasts_S64_S1x64) broadcasts_S1x64_S5000x64 (ix2 p q) = x4 (ix1 q) := by
  rw [broadcastTo_1b_ab_apply, shapeCast_a_1a_apply]

/-- The combine body's payload is the combine step of its loaded blocks. -/
theorem pay1_combine (x0 x1 x2 : Vec Ideal S5000x64 .f32) (x3 : Vec Ideal S64x64 .f32) (x4 : Vec Ideal S64 .f32) :
    k1_pay1 x0 x1 x2 x3 x4 = combine x0 x1 x2 x3 x4 := by
  funext j
  obtain ⟨p, q, rfl⟩ : ∃ (p : Fin 5000) (q : Fin 64), j = ix2 p q := ⟨j 0, j 1, eq_ix2 j⟩
  unfold k1_pay1
  rw [shapeCast_self, shapeCast_self]
  simp only [maximumf_apply, addf_apply, mulf_apply, subf_apply, broadcast_apply]
  rw [matmul_rows]
  show max (Ideal.logistic (rowsDot x0 x3 (ix2 p q)
        + broadcastTo S5000x64 (shapeCast S1x64 x4 shapeCasts_S64_S1x64) broadcasts_S1x64_S5000x64 (ix2 p q))
        * (x1 (ix2 p q) + x2 (ix2 p q))
      + (oneW - Ideal.logistic (rowsDot x0 x3 (ix2 p q)
        + broadcastTo S5000x64 (shapeCast S1x64 x4 shapeCasts_S64_S1x64) broadcasts_S1x64_S5000x64 (ix2 p q)))
        * x0 (ix2 p q)) zeroW = _
  rw [bias_apply]
  rfl

end Cert.KernelIdeal.Body

end
-- ==== Proof.Region0.lean ====
/-
  What the first pipeline leaves in its two output arrays.

  The grid has 20 points; point `t` stages rows `5000 t .. 5000 t + 4999` of the node features and the two whole
  64 x 64 weights, and writes back rows `5000 t ..` of each output.  The body's result on a block is the row product of
  the block with a weight, and a row product commutes with taking a block of rows: row `r` of the block's product is row
  `5000 t + r` of the whole product.  The 20 blocks tile the 100000 rows (row `n` is in block `n / 5000`), so each
  output array ends as the whole row product of the features, as the pipeline found them, with its weight.
-/
import proofs.«428677_j12180527251908_3_alg».proof.Proof.Gen.KernelIdeal.Frame
import proofs.«428677_j12180527251908_3_alg».proof.Proof.Payload
import Idealize.ShloMosaic.Lib.Pipeline.Value

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the feature window and both output windows are at block row `t`,
    column block `0`; the weight windows stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features as the pipeline finds them, and the two weights, typed by their literal shapes. -/
abbrev feat (c : Dev nD) : Mat 100000 64 := V c main_arg0
abbrev wN (c : Dev nD) : Mat 64 64 := V c main_arg4
abbrev wL (c : Dev nD) : Mat 64 64 := V c main_arg5

/-- A row of the staged feature block is a row of the features: row `r` of block `t` is row `5000 t + r`. -/
theorem feat_blk (c : Dev nD) (t : Fin cfg0.N) (j : S5000x64.Idx) (k : Fin 64)
    (i : S100000x64.Idx) (hi0 : (i 0).val = t.val * 5000 + (j 0).val) :
    iblk0 V c 0 t (ix2 (row j) k) = feat V c (ix2 (row i) k) := by
  obtain ⟨e0, e1, -⟩ := idx_facts t
  show V c main_arg0 (((cfg0.win 0).blk t).view.emb (ix2 (row j) k)) = V c main_arg0 (ix2 (row i) k)
  refine congrArg _ (funext fun a => Fin.ext ?_)
  match a with
  | ⟨0, _⟩ =>
    show win0_0.index t (0 : Fin 2) * 5000 + 1 * (j 0).val = (i 0).val
    omega
  | ⟨1, _⟩ =>
    show win0_0.index t (1 : Fin 2) * 64 + 1 * k.val = k.val
    omega

/-- The staged weights are the whole weights at every point. -/
theorem wN_blk (c : Dev nD) (t : Fin cfg0.N) (k q : Fin 64) : iblk0 V c 1 t (ix2 k q) = wN V c (ix2 k q) := by
  obtain ⟨-, -, e2, e3, -⟩ := idx_facts t
  show V c main_arg4 (((cfg0.win 1).blk t).view.emb (ix2 k q)) = V c main_arg4 (ix2 k q)
  refine congrArg _ (funext fun a => Fin.ext ?_)
  match a with
  | ⟨0, _⟩ =>
    show win0_1.index t (0 : Fin 2) * 64 + 1 * k.val = k.val
    omega
  | ⟨1, _⟩ =>
    show win0_1.index t (1 : Fin 2) * 64 + 1 * q.val = q.val
    omega
theorem wL_blk (c : Dev nD) (t : Fin cfg0.N) (k q : Fin 64) : iblk0 V c 2 t (ix2 k q) = wL V c (ix2 k q) := by
  obtain ⟨-, -, -, -, e4, e5, -⟩ := idx_facts t
  show V c main_arg5 (((cfg0.win 2).blk t).view.emb (ix2 k q)) = V c main_arg5 (ix2 k q)
  refine congrArg _ (funext fun a => Fin.ext ?_)
  match a with
  | ⟨0, _⟩ =>
    show win0_2.index t (0 : Fin 2) * 64 + 1 * k.val = k.val
    omega
  | ⟨1, _⟩ =>
    show win0_2.index t (1 : Fin 2) * 64 + 1 * q.val = q.val
    omega

/-- WHAT POINT `t` WRITES BACK to output 3 is block `t` of the whole row product of the features with `wN`. -/
theorem flushed3_eq (c : Dev nD) (t : Fin cfg0.N) :
    (dat0 V c).flushed 3 t = ((cfg0.win 3).blk t).view.read (Elt Ideal) (rowsDot (feat V c) (wN V c)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz]
  rw [Body.pay2_rows]
  obtain ⟨-, -, -, -, -, -, e6, e7, e8, e9⟩ := idx_facts t
  funext j
  show rowsDot (iblk0 V c 0 t) (iblk0 V c 1 t) j = rowsDot (feat V c) (wN V c) (((cfg0.win 3).blk t).view.emb j)
  have hr : ((((cfg0.win 3).blk t).view.emb j) 0).val = t.val * 5000 + (j 0).val := by
    show win0_3.index t (0 : Fin 2) * 5000 + 1 * (j 0).val = _
    omega
  have hc : ((((cfg0.win 3).blk t).view.emb j) 1).val = (j 1).val := by
    show win0_3.index t (1 : Fin 2) * 64 + 1 * (j 1).val = _
    omega
  have hcol : col (((cfg0.win 3).blk t).view.emb j) = col j := Fin.ext hc
  unfold rowsDot
  refine Finset.sum_congr rfl fun k _ => ?_
  rw [feat_blk V c t j k _ hr, wN_blk V c t k (col j), hcol]

/-- An index of output 3's array is in point `t`'s block iff each coordinate is in the block's range on its axis. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0_0).slice (win0_3.rect t)).set ↔ _
  rw [View.set_slice_whole, Rect.mem_set_unit]
  exact Iff.rfl

/-- Every row is in some point's block: row `n` in block `n / 5000`. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨-, -, -, -, -, -, e6, e7, e8, e9⟩ := idx_facts ⟨(i 0).val / 5000, by omega⟩
  refine ⟨⟨(i 0).val / 5000, by omega⟩, flush0_3 _, ?_⟩
  rw [mem_blk3]
  intro a
  match a with
  | ⟨0, _⟩ =>
    show win0_3.index _ (0 : Fin 2) * 5000 ≤ (i 0).val ∧ (i 0).val < win0_3.index _ (0 : Fin 2) * 5000 + 5000
    simp only [] at e6 e8
    omega
  | ⟨1, _⟩ =>
    show win0_3.index _ (1 : Fin 2) * 64 ≤ (i 1).val ∧ (i 1).val < win0_3.index _ (1 : Fin 2) * 64 + 64
    omega

/-- THE ARRAY after the pipeline: the whole row product of the features with `wN`. -/
theorem final3 (c : Dev nD) : (dat0 V c).arrAt 3 cfg0.N = rowsDot (feat V c) (wN V c) :=
  (dat0 V c).arrAt_eq_of_cover 3 _ (fun t _ => flushed3_eq V c t) cover3

/-- WHAT POINT `t` WRITES BACK to output 4 is block `t` of the whole row product of the features with `wL`. -/
theorem flushed4_eq (c : Dev nD) (t : Fin cfg0.N) :
    (dat0 V c).flushed 4 t = ((cfg0.win 4).blk t).view.read (Elt Ideal) (rowsDot (feat V c) (wL V c)) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz]
  rw [Body.pay3_rows]
  obtain ⟨-, -, -, -, -, -, e6, e7, e8, e9⟩ := idx_facts t
  funext j
  show rowsDot (iblk0 V c 0 t) (iblk0 V c 2 t) j = rowsDot (feat V c) (wL V c) (((cfg0.win 4).blk t).view.emb j)
  have hr : ((((cfg0.win 4).blk t).view.emb j) 0).val = t.val * 5000 + (j 0).val := by
    show win0_4.index t (0 : Fin 2) * 5000 + 1 * (j 0).val = _
    omega
  have hc : ((((cfg0.win 4).blk t).view.emb j) 1).val = (j 1).val := by
    show win0_4.index t (1 : Fin 2) * 64 + 1 * (j 1).val = _
    omega
  have hcol : col (((cfg0.win 4).blk t).view.emb j) = col j := Fin.ext hc
  unfold rowsDot
  refine Finset.sum_congr rfl fun k _ => ?_
  rw [feat_blk V c t j k _ hr, wL_blk V c t k (col j), hcol]

/-- An index of output 4's array is in point `t`'s block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0_1).slice (win0_4.rect t)).set ↔ _
  rw [View.set_slice_whole, Rect.mem_set_unit]
  exact Iff.rfl

/-- Every row is in some point's block: row `n` in block `n / 5000`. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  obtain ⟨-, -, -, -, -, -, e6, e7, e8, e9⟩ := idx_facts ⟨(i 0).val / 5000, by omega⟩
  refine ⟨⟨(i 0).val / 5000, by omega⟩, flush0_4 _, ?_⟩
  rw [mem_blk4]
  intro a
  match a with
  | ⟨0, _⟩ =>
    show win0_4.index _ (0 : Fin 2) * 5000 ≤ (i 0).val ∧ (i 0).val < win0_4.index _ (0 : Fin 2) * 5000 + 5000
    simp only [] at e6 e8
    omega
  | ⟨1, _⟩ =>
    show win0_4.index _ (1 : Fin 2) * 64 ≤ (i 1).val ∧ (i 1).val < win0_4.index _ (1 : Fin 2) * 64 + 64
    omega

/-- THE ARRAY after the pipeline: the whole row product of the features with `wL`. -/
theorem final4 (c : Dev nD) : (dat0 V c).arrAt 4 cfg0.N = rowsDot (feat V c) (wL V c) :=
  (dat0 V c).arrAt_eq_of_cover 4 _ (fun t _ => flushed4_eq V c t) cover4

end Cert.KernelIdeal.Region0

end
-- ==== Proof.Region1.lean ====
/-
  What the second pipeline leaves in its output array.

  The grid has 20 points; point `t` stages rows `5000 t .. 5000 t + 4999` of the previous layer's output, of the
  normalised aggregate and of the self-loop term, with the whole gate weight and bias, and writes back the same rows
  of the result.  The body's result on the blocks is the combine step of the blocks; the combine step at `(n, j)` reads
  row `n` of the row arrays (and all of row `n` of the previous output, for the gate's product), so the combine of
  the blocks is the block of the combine of the whole arrays.  The 20 blocks tile the 100000 rows, so the result array
  ends as the combine step of the five arrays as the pipeline found them.
-/
import proofs.«428677_j12180527251908_3_alg».proof.Proof.Gen.KernelIdeal.Frame
import proofs.«428677_j12180527251908_3_alg».proof.Proof.Payload
import Idealize.ShloMosaic.Lib.Pipeline.Value

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the 20 grid points: the three row windows and the output window are at block row
    `t`, column block `0`; the gate weight and the bias stay at block `0`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The five arrays as the pipeline finds them, typed by their literal shapes. -/
abbrev prev (c : Dev nD) : Mat 100000 64 := V c main_arg2
abbrev aggn (c : Dev nD) : Mat 100000 64 := V c main_v9
abbrev loop (c : Dev nD) : Mat 100000 64 := V c main_v0_1
abbrev wS (c : Dev nD) : Mat 64 64 := V c main_arg6
abbrev bias (c : Dev nD) : (⟨1, ![64]⟩ : Shape).Idx → EReal := V c main_arg7

/-- Block `t` of `prev` sits where the output's block `t` sits: the two windows move together. -/
theorem emb0_eq (t : Fin cfg1.N) (j : S5000x64.Idx) : ((cfg1.win 0).blk t).view.emb j = ((cfg1.win 5).blk t).view.emb j := by
  obtain ⟨e0, e1, e2, e3, e4, e5, -, -, -, e9, e10⟩ := idx_facts t
  funext a; apply Fin.ext
  match a with
  | ⟨0, _⟩ =>
    show win1_0.index t (0 : Fin 2) * 5000 + 1 * (j 0).val = win1_5.index t (0 : Fin 2) * 5000 + 1 * (j 0).val
    omega
  | ⟨1, _⟩ =>
    show win1_0.index t (1 : Fin 2) * 64 + 1 * (j 1).val = win1_5.index t (1 : Fin 2) * 64 + 1 * (j 1).val
    omega
theorem prev_blk (c : Dev nD) (t : Fin cfg1.N) (j : S5000x64.Idx) :
    iblk1 V c 0 t j = prev V c (((cfg1.win 5).blk t).view.emb j) := by
  show V c main_arg2 (((cfg1.win 0).blk t).view.emb j) = V c main_arg2 (((cfg1.win 5).blk t).view.emb j)
  rw [emb0_eq]

/-- Block `t` of `aggn` sits where the output's block `t` sits: the two windows move together. -/
theorem emb1_eq (t : Fin cfg1.N) (j : S5000x64.Idx) : ((cfg1.win 1).blk t).view.emb j = ((cfg1.win 5).blk t).view.emb j := by
  obtain ⟨e0, e1, e2, e3, e4, e5, -, -, -, e9, e10⟩ := idx_facts t
  funext a; apply Fin.ext
  match a with
  | ⟨0, _⟩ =>
    show win1_1.index t (0 : Fin 2) * 5000 + 1 * (j 0).val = win1_5.index t (0 : Fin 2) * 5000 + 1 * (j 0).val
    omega
  | ⟨1, _⟩ =>
    show win1_1.index t (1 : Fin 2) * 64 + 1 * (j 1).val = win1_5.index t (1 : Fin 2) * 64 + 1 * (j 1).val
    omega
theorem aggn_blk (c : Dev nD) (t : Fin cfg1.N) (j : S5000x64.Idx) :
    iblk1 V c 1 t j = aggn V c (((cfg1.win 5).blk t).view.emb j) := by
  show V c main_v9 (((cfg1.win 1).blk t).view.emb j) = V c main_v9 (((cfg1.win 5).blk t).view.emb j)
  rw [emb1_eq]

/-- Block `t` of `loop` sits where the output's block `t` sits: the two windows move together. -/
theorem emb2_eq (t : Fin cfg1.N) (j : S5000x64.Idx) : ((cfg1.win 2).blk t).view.emb j = ((cfg1.win 5).blk t).view.emb j := by
  obtain ⟨e0, e1, e2, e3, e4, e5, -, -, -, e9, e10⟩ := idx_facts t
  funext a; apply Fin.ext
  match a with
  | ⟨0, _⟩ =>
    show win1_2.index t (0 : Fin 2) * 5000 + 1 * (j 0).val = win1_5.index t (0 : Fin 2) * 5000 + 1 * (j 0).val
    omega
  | ⟨1, _⟩ =>
    show win1_2.index t (1 : Fin 2) * 64 + 1 * (j 1).val = win1_5.index t (1 : Fin 2) * 64 + 1 * (j 1).val
    omega
theorem loop_blk (c : Dev nD) (t : Fin cfg1.N) (j : S5000x64.Idx) :
    iblk1 V c 2 t j = loop V c (((cfg1.win 5).blk t).view.emb j) := by
  show V c main_v0_1 (((cfg1.win 2).blk t).view.emb j) = V c main_v0_1 (((cfg1.win 5).blk t).view.emb j)
  rw [emb2_eq]

/-- The staged gate weight and bias are the whole arrays at every point. -/
theorem wS_blk (c : Dev nD) (t : Fin cfg1.N) (k q : Fin 64) : iblk1 V c 3 t (ix2 k q) = wS V c (ix2 k q) := by
  obtain ⟨-, -, -, -, -, -, e6, e7, -⟩ := idx_facts t
  show V c main_arg6 (((cfg1.win 3).blk t).view.emb (ix2 k q)) = V c main_arg6 (ix2 k q)
  refine congrArg _ (funext fun a => Fin.ext ?_)
  match a with
  | ⟨0, _⟩ =>
    show win1_3.index t (0 : Fin 2) * 64 + 1 * k.val = k.val
    omega
  | ⟨1, _⟩ =>
    show win1_3.index t (1 : Fin 2) * 64 + 1 * q.val = q.val
    omega
theorem bias_blk (c : Dev nD) (t : Fin cfg1.N) (q : Fin 64) : iblk1 V c 4 t (ix1 q) = bias V c (ix1 q) := by
  obtain ⟨-, -, -, -, -, -, -, -, e8, -⟩ := idx_facts t
  show V c main_arg7 (((cfg1.win 4).blk t).view.emb (ix1 q)) = V c main_arg7 (ix1 q)
  refine congrArg _ (funext fun a => Fin.ext ?_)
  match a with
  | ⟨0, _⟩ =>
    show win1_4.index t (0 : Fin 1) * 64 + 1 * q.val = q.val
    omega

/-- WHAT POINT `t` WRITES BACK is block `t` of the combine step of the five arrays. -/
theorem flushed5_eq (c : Dev nD) (t : Fin cfg1.N) :
    (dat1 V c).flushed 5 t = ((cfg1.win 5).blk t).view.read (Elt Ideal)
      (combine (prev V c) (aggn V c) (loop V c) (wS V c) (bias V c)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S64) hz1]
  rw [Body.pay1_combine]
  obtain ⟨-, -, -, -, -, -, -, -, -, e9, e10⟩ := idx_facts t
  funext j
  show combine (iblk1 V c 0 t) (iblk1 V c 1 t) (iblk1 V c 2 t) (iblk1 V c 3 t) (iblk1 V c 4 t) j
    = combine (prev V c) (aggn V c) (loop V c) (wS V c) (bias V c) (((cfg1.win 5).blk t).view.emb j)
  have hr : ((((cfg1.win 5).blk t).view.emb j) 0).val = (((cfg1.win 5).blk t).view.emb j 0).val := rfl
  have hc : ((((cfg1.win 5).blk t).view.emb j) 1).val = (j 1).val := by
    show win1_5.index t (1 : Fin 2) * 64 + 1 * (j 1).val = _
    omega
  have hcol : col (((cfg1.win 5).blk t).view.emb j) = col j := Fin.ext hc
  have h1 : rowsDot (iblk1 V c 0 t) (iblk1 V c 3 t) j
      = rowsDot (prev V c) (wS V c) (((cfg1.win 5).blk t).view.emb j) := by
    unfold rowsDot
    refine Finset.sum_congr rfl fun k _ => ?_
    rw [wS_blk V c t k (col j), hcol, prev_blk V c t (ix2 (row j) k)]
    refine congrArg (fun x => prev V c x * _) (funext fun a => Fin.ext ?_)
    match a with
    | ⟨0, _⟩ => rfl
    | ⟨1, _⟩ =>
      show win1_5.index t (1 : Fin 2) * 64 + 1 * k.val = k.val
      omega
  unfold combine
  rw [h1, bias_blk V c t (col j), hcol, aggn_blk V c t j, loop_blk V c t j, prev_blk V c t j]

/-- An index of the result array is in point `t`'s block iff each coordinate is in the block's range on its axis. -/
theorem mem_blk5 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v10).slice (win1_5.rect t)).set ↔ _
  rw [View.set_slice_whole, Rect.mem_set_unit]
  exact Iff.rfl

/-- Every row is in some point's block: row `n` in block `n / 5000`. -/
theorem cover5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨-, -, -, -, -, -, -, -, -, e9, e10⟩ := idx_facts ⟨(i 0).val / 5000, by omega⟩
  refine ⟨⟨(i 0).val / 5000, by omega⟩, flush1_5 _, ?_⟩
  rw [mem_blk5]
  intro a
  match a with
  | ⟨0, _⟩ =>
    show win1_5.index _ (0 : Fin 2) * 5000 ≤ (i 0).val ∧ (i 0).val < win1_5.index _ (0 : Fin 2) * 5000 + 5000
    simp only [] at e9
    omega
  | ⟨1, _⟩ =>
    show win1_5.index _ (1 : Fin 2) * 64 ≤ (i 1).val ∧ (i 1).val < win1_5.index _ (1 : Fin 2) * 64 + 64
    omega

/-- THE RESULT ARRAY after the pipeline: the combine step of the five arrays as the pipeline found them. -/
theorem final5 (c : Dev nD) : (dat1 V c).arrAt 5 cfg1.N
    = combine (prev V c) (aggn V c) (loop V c) (wS V c) (bias V c) :=
  (dat1 V c).arrAt_eq_of_cover 5 _ (fun t _ => flushed5_eq V c t) cover5

end Cert.KernelIdeal.Region1

end
-- ==== Proof.KernelValue.lean ====
/-
  The value the idealized program returns, as one function of its argument arrays.

  Between its two pipelines the program, on the host: multiplies the relation embeddings by the neighbour weight;
  gathers, per edge, the row of the first pipeline's product `h Wn` its source names and the row of `E Wn` its
  relation names, and adds them; scatter-adds the edge rows into the node rows their destinations name, from zero; and
  multiplies each node row by the node's degree norm (`between`).  The second pipeline then combines that with the
  self-loop product `h Wl` and the previous layer's output.  Every buffer the second pipeline reads is traced back
  through the host operations' fold to the launch memory or to what the first pipeline left.
-/
import proofs.«428677_j12180527251908_3_alg».proof.Proof.Gen.KernelIdeal.Frame
import proofs.«428677_j12180527251908_3_alg».proof.Proof.KernelRun
import proofs.«428677_j12180527251908_3_alg».proof.Proof.Region0
import proofs.«428677_j12180527251908_3_alg».proof.Proof.Region1
import Idealize.ShloMosaic.Lib.StableHlo.Run

set_option maxRecDepth 16384

noncomputable section

namespace Cert.KernelIdeal.Value

open Cert.KernelIdeal Cert.KernelIdeal.Gen Cert.Spec
open Idealize.ShloMosaic Idealize.ShloMosaic.TcCoe Idealize.ShloMosaic.ValueIdx Idealize.SL.Sem Idealize.ShloMosaic.StableHlo

/-- The host operations between the two pipelines, as one function of what they read: `hw` the first pipeline's
    product with the neighbour weight, the relation embeddings and that weight, the degree norm, and the edges'
    source, destination and relation indices. -/
def between (hw : FVec Ideal S100000x64 .f32) (emb : FVec Ideal S460x64 .f32) (wn : FVec Ideal S64x64 .f32)
    (nu : FVec Ideal S100000x1 .f32) (src dst et : IVec S1600000 32) : FVec Ideal S100000x64 .f32 :=
  mulf (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (addf (Host.gather gather_S100000x64_S1600000x1_S1600000x64_1_0_n_n_0_1_164 hw
              (broadcastInDim S1600000x1 ![0] bcast_S1600000_S1600000x1_0 src))
            (Host.gather gather_S460x64_S1600000x1_S1600000x64_1_0_n_n_0_1_164
              (Host.dotGeneral dot_S460x64_S64x64_S460x64_1_0_0_1_n_n none emb wn)
              (broadcastInDim S1600000x1 ![0] bcast_S1600000_S1600000x1_0 et))))
    (broadcastInDim S100000x64 ![0, 1] bcast_S100000x1_S100000x64_0_1 nu)

/-- The program's result as a function of its eleven argument arrays. -/
def result (h : FVec Ideal S100000x64 .f32) (nu : FVec Ideal S100000x1 .f32) (p : FVec Ideal S100000x64 .f32)
    (emb : FVec Ideal S460x64 .f32) (wn wl ws : FVec Ideal S64x64 .f32) (b : FVec Ideal S64 .f32)
    (src dst et : IVec S1600000 32) : FVec Ideal S100000x64 .f32 :=
  combine p (between (rowsDot h wn) emb wn nu src dst et) (rowsDot h wl) ws b

variable (m : (ℓ : Loc nD τ sig) → Buf (Elt Ideal) ℓ) (ρ : Dev nD → PrngReg)

/-! ## The second pipeline's inputs, traced back -/

theorem V5_arg2 (c : Dev nD) : V5 m ρ c main_arg2 = m ((c : Thread nD τ).loc main_arg2) :=
  ((W6_arr m ρ c 0).trans (((dat1 (V5 m ρ) c).arrAt_in 0 rfl _).trans (A_eq1 (V5 m ρ) c 0))).symm.trans (W6_main_arg2 m ρ c)
theorem V5_arg6 (c : Dev nD) : V5 m ρ c main_arg6 = m ((c : Thread nD τ).loc main_arg6) :=
  ((W6_arr m ρ c 3).trans (((dat1 (V5 m ρ) c).arrAt_in 3 rfl _).trans (A_eq1 (V5 m ρ) c 3))).symm.trans (W6_main_arg6 m ρ c)
theorem V5_arg7 (c : Dev nD) : V5 m ρ c main_arg7 = m ((c : Thread nD τ).loc main_arg7) :=
  ((W6_arr m ρ c 4).trans (((dat1 (V5 m ρ) c).arrAt_in 4 rfl _).trans (A_eq1 (V5 m ρ) c 4))).symm.trans (W6_main_arg7 m ρ c)

/-- The self-loop product is untouched by the host operations: what the first pipeline left. -/
theorem V5_v0_1 (c : Dev nD) : V5 m ρ c main_v0_1 = (dat0 (V0 m ρ) c).arrAt 4 cfg0.N := by
  show StableHlo.after hostOps1_3 (StableHlo.after hostOps1_2 (StableHlo.after hostOps1_1 (StableHlo.after hostOps1 (W1 m ρ c))))
    (Proc.devRef .tc main_v0_1) = _
  after_results
  exact W1_arr m ρ c 4

/-- From ANY contents, after the four stretches of host operations the aggregate's buffer holds their composed term
    of the contents of the seven buffers they read. -/
theorem after_v9 (W : Valuation τ sig (Elt Ideal)) :
    StableHlo.after hostOps1_3 (StableHlo.after hostOps1_2 (StableHlo.after hostOps1_1 (StableHlo.after hostOps1 W)))
      (Proc.devRef .tc main_v9)
    = between (W (Proc.devRef .tc main_v0_0)) (W (Proc.devRef .tc main_arg3)) (W (Proc.devRef .tc main_arg4))
        (W (Proc.devRef .tc main_arg1)) (W (Proc.devRef .tc main_arg8)) (W (Proc.devRef .tc main_arg9))
        (W (Proc.devRef .tc main_arg10)) := by
  after_results
  rfl

/-- The normalised aggregate: the host operations' composed term of what the first pipeline left and the arguments. -/
theorem V5_v9 (c : Dev nD) : V5 m ρ c main_v9
    = between ((dat0 (V0 m ρ) c).arrAt 3 cfg0.N) (m ((c : Thread nD τ).loc main_arg3)) (m ((c : Thread nD τ).loc main_arg4))
        (m ((c : Thread nD τ).loc main_arg1)) (m ((c : Thread nD τ).loc main_arg8)) (m ((c : Thread nD τ).loc main_arg9))
        (m ((c : Thread nD τ).loc main_arg10)) := by
  show StableHlo.after hostOps1_3 (StableHlo.after hostOps1_2 (StableHlo.after hostOps1_1 (StableHlo.after hostOps1 (W1 m ρ c))))
    (Proc.devRef .tc main_v9) = _
  rw [after_v9]
  have h0 : W1 m ρ c (Proc.devRef .tc main_v0_0) = (dat0 (V0 m ρ) c).arrAt 3 cfg0.N := W1_arr m ρ c 3
  have h4 : W1 m ρ c (Proc.devRef .tc main_arg4) = (m ((c : Thread nD τ).loc main_arg4)) :=
    (W1_arr m ρ c 1).trans (((dat0 (V0 m ρ) c).arrAt_in 1 rfl _).trans (A_eq0 (V0 m ρ) c 1))
  have h3 : W1 m ρ c (Proc.devRef .tc main_arg3) = (m ((c : Thread nD τ).loc main_arg3)) := W1_of_ne m ρ c main_arg3 (by decide)
  have h1 : W1 m ρ c (Proc.devRef .tc main_arg1) = (m ((c : Thread nD τ).loc main_arg1)) := W1_of_ne m ρ c main_arg1 (by decide)
  have h8 : W1 m ρ c (Proc.devRef .tc main_arg8) = (m ((c : Thread nD τ).loc main_arg8)) := W1_of_ne m ρ c main_arg8 (by decide)
  have h9 : W1 m ρ c (Proc.devRef .tc main_arg9) = (m ((c : Thread nD τ).loc main_arg9)) := W1_of_ne m ρ c main_arg9 (by decide)
  have h10 : W1 m ρ c (Proc.devRef .tc main_arg10) = (m ((c : Thread nD τ).loc main_arg10)) := W1_of_ne m ρ c main_arg10 (by decide)
  rw [h0, h4, h3, h1, h8, h9, h10]

/-! ## The result array, and the run with its result as that function of the arguments -/

/-- What the second pipeline leaves in the result array is `result` of the eleven arguments. -/
theorem out_eq (c : Dev nD) : (dat1 (V5 m ρ) c).arrAt 5 cfg1.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Region1.final5 (V5 m ρ) c]
  show combine (V5 m ρ c main_arg2) (V5 m ρ c main_v9) (V5 m ρ c main_v0_1) (V5 m ρ c main_arg6) (V5 m ρ c main_arg7) = _
  rw [V5_arg2, V5_v9, V5_v0_1, V5_arg6, V5_arg7, Region0.final3 (V0 m ρ) c, Region0.final4 (V0 m ρ) c]
  rfl

/-- Every weakly fair execution of the idealized program terminates, without a fault, with its result buffer at
    `result` of the launch contents of the argument buffers and the argument buffers unchanged. -/
theorem run : θ_run defs (onTc (τ := τ) (main (F := Ideal))) ⟨m, fun _ => 0, ρ⟩ (fun r => ∀ c : Dev nD,
      r.2.mem ((c.tc : Thread nD τ).loc main_v10)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (out_eq m ρ c), (h c).2⟩) (Named.run_named m ρ)

end Cert.KernelIdeal.Value

end
-- ==== Proof.LibGatherRows.lean ====
/-
  A row gather read at an index.

  What `x[idx]` of a matrix `x : [N, C]` at an integer vector `idx : [E]` lowers to is a `stablehlo.gather` with
  offset axis `[1]`, collapsed axis `[0]`, start index map `[0]`, slice sizes `[1, C]` and the indices reshaped to
  `[E, 1]` with the index vector on axis 1.  Its result element `(e, j)` is the operand's element in column `j` of the
  row named by the start index `idx[e, 0]`, read as a signed integer and clamped into `[0, N - 1]`: a negative start
  index reads row `0`, one past the end reads the last row.  In particular the row depends on `e` alone and the
  column is `j`: a gathered matrix is a selection of whole rows.
-/
import Idealize.ShloMosaic.PureOps.Ideal
import Idealize.ShloMosaic.Lib.ValueIdx

noncomputable section

namespace Idealize.ShloMosaic.GatherRows

open Idealize.ShloMosaic

variable {α : Type}

/-- The dimension numbers of a row gather, for an operand `[N, C]`, start indices `[E, 1]` and a result `[E, C]`. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The start-indices index `[e, 0]` at which result index `(e, j)` reads its start index. -/
abbrev startAt {E C : Nat} (y : (⟨2, ![E, C]⟩ : Shape).Idx) : (⟨2, ![E, 1]⟩ : Shape).Idx :=
  fun a => match a with | ⟨0, _⟩ => ⟨(y 0).val, (y 0).isLt⟩ | ⟨1, _⟩ => ⟨0, Nat.one_pos⟩

/-- The row result index `y = (e, j)` reads: the start index `idx[e, 0]`, signed, clamped into `[0, N - 1]`. -/
def rowOf {N E C w : Nat} (hN : 0 < N) (idx : IVec ⟨2, ![E, 1]⟩ w) (y : (⟨2, ![E, C]⟩ : Shape).Idx) : Fin N :=
  ⟨min (idx (startAt y)).toInt.toNat (N - 1), by omega⟩

/-- The row depends on the first coordinate of the result index only. -/
theorem rowOf_congr {N E C w : Nat} (hN : 0 < N) (idx : IVec ⟨2, ![E, 1]⟩ w) (y y' : (⟨2, ![E, C]⟩ : Shape).Idx)
    (h : (y 0).val = (y' 0).val) : rowOf hN idx y = rowOf hN idx y' := by
  have e : startAt y = startAt y' := by
    funext a
    match a with
    | ⟨0, _⟩ => exact Fin.ext h
    | ⟨1, _⟩ => rfl
  refine Fin.ext ?_
  show min (idx (startAt y)).toInt.toNat (N - 1) = min (idx (startAt y')).toInt.toNat (N - 1)
  rw [e]

/-- On the gathered axis the operand index is the clamped start index: the axis is collapsed and no batching axis. -/
theorem operandIdx_row {N C E w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowsDims N C E wf).operandIdx y idx 0).val = (rowOf hN idx y).val := by
  show (rowsDims N C E wf).start y idx 0 + (rowsDims N C E wf).batchCoord y 0 + (rowsDims N C E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N C E wf).startIndexMap from List.mem_singleton.mpr rfl)]
  have hsi : (rowsDims N C E wf).siIdx y ⟨List.idxOf (0 : Fin 2) (rowsDims N C E wf).startIndexMap,
      List.idxOf_lt_length_iff.2 (List.mem_singleton.mpr rfl)⟩ = startAt y := by
    funext b; refine Fin.ext ?_
    match b with
    | ⟨0, _⟩ => rfl
    | ⟨1, _⟩ => rfl
  rw [hsi]
  rfl

/-- On the other axis it is the result's column: no start index, no batching, the offset axis. -/
theorem operandIdx_col {N C E w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowsDims N C E wf).operandIdx y idx 1).val = (y 1).val := by
  show (rowsDims N C E wf).start y idx 1 + (rowsDims N C E wf).batchCoord y 1 + (rowsDims N C E wf).offCoord y 1 = _
  rw [GatherDims.batchCoord_eq_zero _ _ _ List.not_mem_nil]
  unfold GatherDims.start
  rw [dif_neg (show ¬ (1 : Fin 2) ∈ (rowsDims N C E wf).startIndexMap from
    fun h => Nat.one_ne_zero (congrArg Fin.val (List.mem_singleton.mp h)))]
  unfold GatherDims.offCoord
  rw [dif_pos (show (1 : Fin 2) ∈ (rowsDims N C E wf).sKept from
    (GatherDims.mem_sKept _ _).mpr
      ⟨fun h => Nat.one_ne_zero (congrArg Fin.val (List.mem_singleton.mp h)), List.not_mem_nil⟩)]
  simp only [Nat.zero_add]
  rfl

/-- THE ROW GATHER READ AT `(e, j)`: column `j` of the row the clamped start index names. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowsDims N C E wf) x idx y
      = x (ValueIdx.ix2 (rowOf hN idx y) (⟨(y 1).val, (y 1).isLt⟩ : Fin C)) := by
  unfold Host.gather
  congr 1
  funext a
  refine Fin.ext ?_
  match a with
  | ⟨0, _⟩ => exact operandIdx_row hN wf idx y
  | ⟨1, _⟩ => exact operandIdx_col wf idx y

/-- The same over the whole array: the gathered matrix, as a function of its index. -/
theorem gather_rows_eq {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) :
    Host.gather (rowsDims N C E wf) x idx
      = fun (y : (⟨2, ![E, C]⟩ : Shape).Idx) => x (ValueIdx.ix2 (rowOf hN idx y) (⟨(y 1).val, (y 1).isLt⟩ : Fin C)) :=
  funext fun y => gather_rows_apply hN wf x idx y

end Idealize.ShloMosaic.GatherRows

end
-- ==== Proof.Bridge.lean ====
/-
  The reference computes the kernel's function.

  The reference gathers, per edge, the source's feature row and the relation's embedding row, ADDS them, and multiplies
  the sum by the neighbour weight; the kernel multiplies the features and the embeddings by the weight first and
  gathers rows of the two products.  A gathered matrix is a selection of whole rows, so each message is
  `(h s + E t) W` on one side and `(h W) s + (E W) t` on the other: equal because a dot product is additive in its left
  factor when every entry is a real number.  Which row an index names: the reference first adds the extent to a
  negative index; on indices that are `>= 0` that does nothing, and the two programs hand the SAME index arrays to the
  same gather.  Everything after the messages is the same operation in both programs, applied to equal arrays: the
  scatter-add by destination, the degree norm, the self-loop product, the gate and the blend; the reference spells
  the gate's logistic as `1 / (1 + exp (-z))`.
-/
import proofs.«428677_j12180527251908_3_alg».proof.Proof.Gen.ReferenceIdeal.Read
import proofs.«428677_j12180527251908_3_alg».proof.Proof.KernelValue
import proofs.«428677_j12180527251908_3_alg».proof.Proof.LibGatherRows
import Idealize.ShloMosaic.PureOps.Ideal.Laws

noncomputable section

namespace Cert.Bridge

open Cert.ReferenceIdeal Cert.ReferenceIdeal.Gen Cert.ReferenceIdeal.Read Cert.Spec
open Idealize.ShloMosaic Idealize.ShloMosaic.ValueIdx Idealize.ShloMosaic.GatherRows

variable (x0 : FVec Ideal S100000x64 .f32) (x1 : FVec Ideal S100000x1 .f32) (x2 : FVec Ideal S100000x64 .f32)
  (x3 : FVec Ideal S460x64 .f32) (x4 x5 x6 : FVec Ideal S64x64 .f32) (x7 : FVec Ideal S64 .f32)
  (x8 x9 x10 : IVec S1600000 32)

/-! ## The index arrays: on indices `>= 0` the reference's wrap-around does nothing -/

theorem wrap_src (h8 : ∀ e, IntOp.cmpi .slt (x8 e) 0#32 = 0#1) : val_main_v15 (F := Ideal) x8 = x8 := by
  funext e
  rw [val_main_v15_apply, val_main_v12_apply, val_main_v11_apply, val_main_c_apply, h8 e]
  exact select_zero _ _

theorem wrap_rel (h10 : ∀ e, IntOp.cmpi .slt (x10 e) 0#32 = 0#1) : val_main_v22 (F := Ideal) x10 = x10 := by
  funext e
  rw [val_main_v22_apply, val_main_v19_apply, val_main_v18_apply, val_main_c_2_apply, h10 e]
  exact select_zero _ _

/-! ## The dimension numbers, named -/

theorem gF_rows : gather_S100000x64_S1600000x1_S1600000x64_1_0_n_n_0_1_164
    = rowsDims 100000 64 1600000 gather_S100000x64_S1600000x1_S1600000x64_1_0_n_n_0_1_164_wf := rfl
theorem gE_rows : gather_S460x64_S1600000x1_S1600000x64_1_0_n_n_0_1_164
    = rowsDims 460 64 1600000 gather_S460x64_S1600000x1_S1600000x64_1_0_n_n_0_1_164_wf := rfl

/-- The edge indices as a column, as both programs hand them to the gather. -/
abbrev col1 (x : IVec S1600000 32) : IVec S1600000x1 32 := broadcastInDim S1600000x1 ![0] bcast_S1600000_S1600000x1_0 x

/-! ## The products -/

theorem v0_rows : val_main_v0 (F := Ideal) x0 x5 = rowsDot x0 x5 := by
  funext i
  unfold val_main_v0
  simp only [Host.dotGeneral]
  rw [Ideal.dotGeneral_apply]
  exact plain_sum dot_S100000x64_S64x64_S100000x64_1_0_0_1_n_n rfl x0 x5 i

theorem v1_rows : val_main_v1 (F := Ideal) x2 x6 = rowsDot x2 x6 := by
  funext i
  unfold val_main_v1
  simp only [Host.dotGeneral]
  rw [Ideal.dotGeneral_apply]
  exact plain_sum dot_S100000x64_S64x64_S100000x64_1_0_0_1_n_n rfl x2 x6 i

/-- The kernel's product of the relation embeddings with the neighbour weight is their row product. -/
theorem relw_rows : Host.dotGeneral (F := Ideal) Cert.KernelIdeal.dot_S460x64_S64x64_S460x64_1_0_0_1_n_n none x3 x4 = rowsDot x3 x4 := by
  funext i
  simp only [Host.dotGeneral]
  rw [Ideal.dotGeneral_apply]
  exact plain_sum Cert.KernelIdeal.dot_S460x64_S64x64_S460x64_1_0_0_1_n_n rfl x3 x4 i

/-! ## The messages -/

/-- THE MESSAGES: the reference's `(h[src] + E[rel]) Wn` is the kernel's `(h Wn)[src] + (E Wn)[rel]`, over real
    entries and on index arrays that are `>= 0`. -/
theorem messages_eq (hx0 : ∀ i, ∃ r : ℝ, x0 i = (r : EReal)) (hx3 : ∀ i, ∃ r : ℝ, x3 i = (r : EReal))
    (hx4 : ∀ i, ∃ r : ℝ, x4 i = (r : EReal))
    (h8 : ∀ e, IntOp.cmpi .slt (x8 e) 0#32 = 0#1) (h10 : ∀ e, IntOp.cmpi .slt (x10 e) 0#32 = 0#1) :
    val_main_v26 (F := Ideal) x0 x3 x4 x8 x10
      = addf (Host.gather Cert.KernelIdeal.gather_S100000x64_S1600000x1_S1600000x64_1_0_n_n_0_1_164 (rowsDot x0 x4) (col1 x8))
          (Host.gather Cert.KernelIdeal.gather_S460x64_S1600000x1_S1600000x64_1_0_n_n_0_1_164
            (Host.dotGeneral (F := Ideal) Cert.KernelIdeal.dot_S460x64_S64x64_S460x64_1_0_0_1_n_n none x3 x4) (col1 x10)) := by
  have hN : 0 < 100000 := by decide
  have hR : 0 < 460 := by decide
  rw [relw_rows]
  unfold val_main_v26 val_main_v25 val_main_v17 val_main_v24 val_main_v16 val_main_v23
  rw [wrap_src x8 h8, wrap_rel x10 h10]
  show Host.dotGeneral dot_S1600000x64_S64x64_S1600000x64_1_0_0_1_n_n none
      (addf (Host.gather (rowsDims 100000 64 1600000 gather_S100000x64_S1600000x1_S1600000x64_1_0_n_n_0_1_164_wf) x0 (col1 x8))
        (Host.gather (rowsDims 460 64 1600000 gather_S460x64_S1600000x1_S1600000x64_1_0_n_n_0_1_164_wf) x3 (col1 x10))) x4
    = addf (Host.gather (rowsDims 100000 64 1600000 gather_S100000x64_S1600000x1_S1600000x64_1_0_n_n_0_1_164_wf) (rowsDot x0 x4) (col1 x8))
        (Host.gather (rowsDims 460 64 1600000 gather_S460x64_S1600000x1_S1600000x64_1_0_n_n_0_1_164_wf) (rowsDot x3 x4) (col1 x10))
  rw [gather_rows_eq hN, gather_rows_eq hR, gather_rows_eq hN, gather_rows_eq hR]
  funext y
  simp only [Host.dotGeneral]
  rw [Ideal.dotGeneral_apply, plain_sum dot_S1600000x64_S64x64_S1600000x64_1_0_0_1_n_n rfl]
  have hr8 : ∀ k : Fin 64, rowOf hN (col1 x8) (ix2 (row y) k : S1600000x64.Idx) = rowOf hN (col1 x8) y :=
    fun k => rowOf_congr hN (col1 x8) _ _ rfl
  have hr10 : ∀ k : Fin 64, rowOf hR (col1 x10) (ix2 (row y) k : S1600000x64.Idx) = rowOf hR (col1 x10) y :=
    fun k => rowOf_congr hR (col1 x10) _ _ rfl
  show ∑ k : Fin 64, (x0 (ix2 (rowOf hN (col1 x8) (ix2 (row y) k : S1600000x64.Idx)) k)
        + x3 (ix2 (rowOf hR (col1 x10) (ix2 (row y) k : S1600000x64.Idx)) k)) * x4 (ix2 k (col y))
    = ∑ k : Fin 64, x0 (ix2 (rowOf hN (col1 x8) y) k) * x4 (ix2 k (col y))
      + ∑ k : Fin 64, x3 (ix2 (rowOf hR (col1 x10) y) k) * x4 (ix2 k (col y))
  simp only [hr8, hr10]
  exact dot_add_rows _ _ _ (fun k => hx0 _) (fun k => hx3 _) (fun k => hx4 _)

/-! ## The aggregate, and the whole result -/

/-- The bias, broadcast twice, read at `(n, j)`: `b j`. -/
theorem bias_idx (i : S100000x64.Idx) : idx_main_v2 (idx_main_v3 i) = ix1 (col i) :=
  funext fun a => Fin.ext (by
    match a with
    | ⟨0, _⟩ => rfl)

/-- The reference's scatter-add of its messages is the kernel's scatter-add of its own. -/
theorem aggregate_eq (hx0 : ∀ i, ∃ r : ℝ, x0 i = (r : EReal)) (hx3 : ∀ i, ∃ r : ℝ, x3 i = (r : EReal))
    (hx4 : ∀ i, ∃ r : ℝ, x4 i = (r : EReal))
    (h8 : ∀ e, IntOp.cmpi .slt (x8 e) 0#32 = 0#1) (h10 : ∀ e, IntOp.cmpi .slt (x10 e) 0#32 = 0#1) :
    mulf (val_main_v29 (F := Ideal) x0 x3 x4 x8 x9 x10) (val_main_v30 (F := Ideal) x1)
      = Cert.KernelIdeal.Value.between (rowsDot x0 x4) x3 x4 x1 x8 x9 x10 := by
  unfold val_main_v29
  rw [messages_eq x0 x3 x4 x8 x10 hx0 hx3 hx4 h8 h10]
  rfl

/-- THE REFERENCE'S RESULT IS THE KERNEL'S: the last stage of the reference, as a function of the eleven arguments, is
    the function the idealized kernel program returns — over real node features, relation embeddings and neighbour
    weight, and source and relation indices that are `>= 0`. -/
theorem ref_eq_result (hx0 : ∀ i, ∃ r : ℝ, x0 i = (r : EReal)) (hx3 : ∀ i, ∃ r : ℝ, x3 i = (r : EReal))
    (hx4 : ∀ i, ∃ r : ℝ, x4 i = (r : EReal))
    (h8 : ∀ e, IntOp.cmpi .slt (x8 e) 0#32 = 0#1) (h10 : ∀ e, IntOp.cmpi .slt (x10 e) 0#32 = 0#1) :
    val_main_v38 (F := Ideal) x0 x1 x2 x3 x4 x5 x6 x7 x8 x9 x10
      = Cert.KernelIdeal.Value.result x0 x1 x2 x3 x4 x5 x6 x7 x8 x9 x10 := by
  have hagg := aggregate_eq x0 x1 x3 x4 x8 x9 x10 hx0 hx3 hx4 h8 h10
  funext i
  rw [val_main_v38_apply, val_main_v37_apply, val_main_v33_apply, val_main_v36_apply, val_main_v35_apply,
    val_main_v32_apply, val_main_v10_apply, val_main_v8_apply, val_main_v6_apply, val_main_v5_apply, val_main_v4_apply,
    val_main_v3_apply, val_main_v2_apply, val_main_v34_apply, val_main_cst_5_apply, val_main_v9_apply, val_main_cst_0_apply,
    val_main_v7_apply, val_main_cst_apply, val_main_call0_v0_apply, val_main_call0_cst_apply, bias_idx, v0_rows, v1_rows]
  have h31 : val_main_v31 (F := Ideal) x0 x1 x3 x4 x8 x9 x10
      = Cert.KernelIdeal.Value.between (rowsDot x0 x4) x3 x4 x1 x8 x9 x10 := hagg
  rw [h31]
  show max (Ideal.div oneW (oneW + Ideal.exp (-(rowsDot x2 x6 i + x7 (ix1 (col i)))))
        * (Cert.KernelIdeal.Value.between (rowsDot x0 x4) x3 x4 x1 x8 x9 x10 i + rowsDot x0 x5 i)
      + (oneW - Ideal.div oneW (oneW + Ideal.exp (-(rowsDot x2 x6 i + x7 (ix1 (col i)))))) * x2 i) zeroW = _
  rw [logistic_spelt]
  rfl

end Cert.Bridge

end
-- ==== Proof.Pre.lean ====
/-
  What the precondition says of the argument arrays.

  The predicate is a conjunction of ten reductions by `and`: eight say that every entry of a float argument has
  absolute value below `+inf`, and two that every source index and every relation index is `>= 0` as a signed
  32-bit integer.  An extended real whose absolute value is below `+inf` is a real number; a word `>= 0` is not `< 0`.
  The equivalence uses three of the float facts (the node features, the relation embeddings and the neighbour weight
  enter the one product whose distributivity needs real entries) and both index facts (on a negative index the two
  programs would read different rows).
-/
import proofs.«428677_j12180527251908_3_alg».proof.Pre_finite_inputs
import proofs.«428677_j12180527251908_3_alg».proof.Proof.Gen.Pre_finite_inputs
import Idealize.ShloMosaic.PureOps.Ideal
import Idealize.ShloMosaic.Lib.ValueIdx
import Idealize.ShloMosaic.Lib.ReduceAll

noncomputable section

namespace Cert.PreFacts

open Cert.Pre_finite_inputs Cert.Pre_finite_inputs.Gen Idealize.ShloMosaic Idealize.ShloMosaic.ValueIdx

/-- An extended real whose absolute value `max x (-x)` compares below the word for `+inf` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | coe r => exact ⟨r, rfl⟩
  | top => simp at hlt

/-- A signed word that is `>= 0` is not `< 0`. -/
theorem slt_zero_of_sge_zero (a : BitVec 32) (h : IntOp.cmpi .sge a 0#32 = 1#1) : IntOp.cmpi .slt a 0#32 = 0#1 := by
  have h1 : (0#32).sle a = true := by
    have hh : BitVec.ofBool ((0#32).sle a) = 1#1 := h
    cases hb : (0#32).sle a
    · rw [hb] at hh; exact absurd hh (by decide)
    · rfl
  have h2 : a.slt 0#32 = false := by
    rw [BitVec.sle_eq_not_slt] at h1
    cases hb : a.slt 0#32
    · rfl
    · rw [hb] at h1; exact absurd h1 (by decide)
  show BitVec.ofBool (a.slt 0#32) = 0#1
  rw [h2]; rfl

instance : Subsingleton S_.Idx := ⟨fun a b => funext fun d => d.elim0⟩

/-- What the equivalence uses of the precondition. -/
structure Good (x0 : FVec Ideal S100000x64 .f32) (x3 : FVec Ideal S460x64 .f32) (x4 : FVec Ideal S64x64 .f32)
    (x8 x10 : IVec S1600000 32) : Prop where
  feat_real : ∀ i, ∃ r : ℝ, x0 i = (r : EReal)
  emb_real : ∀ i, ∃ r : ℝ, x3 i = (r : EReal)
  wn_real : ∀ i, ∃ r : ℝ, x4 i = (r : EReal)
  src_nonneg : ∀ e, IntOp.cmpi .slt (x8 e) 0#32 = 0#1
  rel_nonneg : ∀ e, IntOp.cmpi .slt (x10 e) 0#32 = 0#1

theorem good_of_pre (x0 : FVec Ideal S100000x64 .f32) (x1 : FVec Ideal S100000x1 .f32) (x2 : FVec Ideal S100000x64 .f32)
    (x3 : FVec Ideal S460x64 .f32) (x4 x5 x6 : FVec Ideal S64x64 .f32) (x7 : FVec Ideal S64 .f32)
    (x8 x9 x10 : IVec S1600000 32)
    (h : fn (F := Ideal) x0 x1 x2 x3 x4 x5 x6 x7 x8 x9 x10 = fun _ => 1#1) : Good x0 x3 x4 x8 x10 := by
  have h0 := congrFun h ix0
  dsimp only [fn, fn_part1, fn_part2] at h0
  simp only [andi, IntOp.andi_eq_one] at h0
  obtain ⟨⟨⟨⟨⟨⟨⟨⟨⟨h3, -⟩, -⟩, h17⟩, h22⟩, -⟩, -⟩, -⟩, h41⟩, h45⟩ := h0
  exact
    { feat_real := fun i => real_of_abs_lt_inf (x0 i) (Host.reduce_andi_all _ _ _ _ ix0 h3 i)
      emb_real := fun i => real_of_abs_lt_inf (x3 i) (Host.reduce_andi_all _ _ _ _ ix0 h17 i)
      wn_real := fun i => real_of_abs_lt_inf (x4 i) (Host.reduce_andi_all _ _ _ _ ix0 h22 i)
      src_nonneg := fun e => slt_zero_of_sge_zero (x8 e) (Host.reduce_andi_all _ _ _ _ ix0 h41 e)
      rel_nonneg := fun e => slt_zero_of_sge_zero (x10 e) (Host.reduce_andi_all _ _ _ _ ix0 h45 e) }

end Cert.PreFacts

end
-- ==== Proof.lean ====
/-
  The certificate of one relational graph-convolution layer with a gated skip connection, computed by two pipelined
  kernels with host operations between them, against its reference.

  Both programs compute, for node features `h`, degree norms `nu`, the previous layer's output `p`, relation
  embeddings `E`, weights `Wn`, `Wl`, `Ws`, a bias `b` and edges (source, destination, relation):
  the messages `(h[src] + E[rel]) Wn`, their sum per destination node times the node's norm, plus the self-loop
  term `h Wl`, blended with `p` by the gate `logistic (p Ws + b)`, and rectified.

  The kernel program moves the product with `Wn` in front of the gather: it forms `h Wn` and `h Wl` in a first
  pipeline over blocks of 5000 nodes, `E Wn` on the host, gathers rows of the two products and adds them.  That is the
  reference's message because a matrix product is additive in its left factor — on the extended reals only where the
  entries are real numbers, which is what the precondition's finiteness of `h`, `E` and `Wn` gives.  The kernel
  gathers with indices clamped into range where the reference first wraps a negative index around; the two agree on
  every index that is `>= 0` and differ on the negative ones, so the precondition also asks the source and relation
  indices to be `>= 0` (the destinations go through the same scatter-add in both programs and need nothing).  The
  second pipeline computes the gate, the blend and the rectifier block by block; the reference spells the gate's
  logistic function as `1 / (1 + exp (-z))`, which is the same function of every extended real.

  The three frames are the generated ones (the reference's is its generated run with the result dropped), the
  idealization rewrote no operation, and the value claim is assembled from: the run of the idealized program with its
  result named as one function of the arguments (Proof/KernelValue.lean, over Proof/Region0.lean, Proof/Region1.lean and
  Proof/KernelRun.lean), the reference's generated run, and the equality of the two functions (Proof/Bridge.lean) under
  what the precondition says (Proof/Pre.lean).
-/
import proofs.«428677_j12180527251908_3_alg».proof.Defs
import proofs.«428677_j12180527251908_3_alg».proof.Proof.Gen.Kernel
import proofs.«428677_j12180527251908_3_alg».proof.Proof.Gen.Kernel.Skeleton
import proofs.«428677_j12180527251908_3_alg».proof.Proof.Gen.Kernel.Launch
import proofs.«428677_j12180527251908_3_alg».proof.Proof.Gen.Kernel.Points
import proofs.«428677_j12180527251908_3_alg».proof.Proof.Gen.Kernel.Frame
import proofs.«428677_j12180527251908_3_alg».proof.Proof.Gen.KernelIdeal
import proofs.«428677_j12180527251908_3_alg».proof.Proof.Gen.KernelIdeal.Skeleton
import proofs.«428677_j12180527251908_3_alg».proof.Proof.Gen.KernelIdeal.Launch
import proofs.«428677_j12180527251908_3_alg».proof.Proof.Gen.KernelIdeal.Points
import proofs.«428677_j12180527251908_3_alg».proof.Proof.Gen.KernelIdeal.Frame
import proofs.«428677_j12180527251908_3_alg».proof.Proof.Gen.ReferenceIdeal
import proofs.«428677_j12180527251908_3_alg».proof.Proof.Gen.Pre_finite_inputs
import proofs.«428677_j12180527251908_3_alg».proof.Proof.Gen.ReferenceIdeal.Run
import proofs.«428677_j12180527251908_3_alg».proof.Proof.Gen.ReferenceIdeal.Read
import proofs.«428677_j12180527251908_3_alg».proof.Proof.KernelValue
import proofs.«428677_j12180527251908_3_alg».proof.Proof.Bridge
import proofs.«428677_j12180527251908_3_alg».proof.Proof.Pre
import Idealize.ShloMosaic.Adequacy
import Idealize.ShloMosaic.Init

noncomputable section

namespace Cert.Proof

open Idealize.ShloMosaic Idealize.SL.Sem

/-- The word-level program runs and leaves its arguments unchanged: the generated frame. -/
theorem frame_kernel : Cert.frame_Kernel := fun m ρ _ => Cert.Kernel.Gen.frame m ρ

/-- So does the idealized program. -/
theorem frame_kernel_ideal : Cert.frame_KernelIdeal := fun m ρ _ => Cert.KernelIdeal.Gen.frame m ρ

/-- The reference runs and leaves its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments and satisfy the precondition, both idealized programs end with the
    same result: the kernel program's result is `result` of the arguments, the reference's is its last stage, and the
    two are one function where the precondition holds. -/
theorem algebraic : Cert.algebraic_KernelIdeal_ReferenceIdeal := by
  intro m ρ m' ρ' hpre hagree
  refine ⟨fun c => Cert.KernelIdeal.Value.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [e0, e1, e2, e3, e4, e5, e6, e7, e8, e9, e10, Cert.ReferenceIdeal.Read.val_main_v38_eq]
  have hg := Cert.PreFacts.good_of_pre _ _ _ _ _ _ _ _ _ _ _ (hpre c)
  exact Cert.Bridge.ref_eq_result _ _ _ _ _ _ _ _ _ _ _ hg.feat_real hg.emb_real hg.wn_real hg.src_nonneg hg.rel_nonneg

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
